-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100 : Shape := ⟨1, ![100]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100 : S_.BroadcastsInDim S100 (![] : Fin 0 → Fin S100.rank)
  reducesTo_S100_S_d0 : S100.ReducesTo [0] S_

variable [Facts]

def fn {F : FTy → Type} [FloatOps F] (main_arg0 : FVec F S512x512 .f32) (main_arg1 : IVec S512 32) (main_arg2 : FVec F S100 .f32) (main_arg3 : FVec F S100 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100 .f32 := Host.absf main_arg2
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S512x512 : Shape := ⟨2, ![512, 512]⟩
abbrev S512 : Shape := ⟨1, ![512]⟩
abbrev S100 : Shape := ⟨1, ![100]⟩
abbrev S512x1 : Shape := ⟨2, ![512, 1]⟩
abbrev S1x512 : Shape := ⟨2, ![1, 512]⟩
abbrev S_ : Shape := ⟨0, ![]⟩
abbrev S1x1 : Shape := ⟨2, ![1, 1]⟩
abbrev S16x512 : Shape := ⟨2, ![16, 512]⟩
abbrev S16x1 : Shape := ⟨2, ![16, 1]⟩
abbrev S16 : Shape := ⟨1, ![16]⟩
abbrev S16x1x1 : Shape := ⟨3, ![16, 1, 1]⟩
abbrev S16x128 : Shape := ⟨2, ![16, 128]⟩
abbrev S16x512x1 : Shape := ⟨3, ![16, 512, 1]⟩
abbrev S16x1x128 : Shape := ⟨3, ![16, 1, 128]⟩
abbrev S16x512x128 : Shape := ⟨3, ![16, 512, 128]⟩
abbrev S1x16 : Shape := ⟨2, ![1, 16]⟩
abbrev S1 : Shape := ⟨1, ![1]⟩

abbrev nBuf : Space → Nat
  | .hbm => 43
  | .vmem => 11
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100, .f32⟩
  | .hbm, ⟨3, _⟩ => ⟨S100, .f32⟩
  | .hbm, ⟨4, _⟩ => ⟨S512x512, .f32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i1⟩
  | .hbm, ⟨18, _⟩ => ⟨S512x512, .f32⟩
  | .hbm, ⟨19, _⟩ => ⟨S512x512, .i1⟩
  | .hbm, ⟨20, _⟩ => ⟨S512x512, .f32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S512, .f32⟩
  | .hbm, ⟨30, _⟩ => ⟨S512x1, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x1, .f32⟩
  | .local _ .vmem, ⟨9, _⟩ => ⟨S16x1, .f32⟩
  | .local _ .vmem, ⟨10, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S_S512 : S_.BroadcastsInDim S512 (![] : Fin 0 → Fin S512.rank)
  shapeCasts_S512_S512x1 : S512.ShapeCasts S512x1
  inb_S1x1_S1x1_0_0 : ∀ a, (![0, 0] : Fin 2 → Nat) a + S1x1.size a ≤ S1x1.size a
  h_S1x1 : 0 < S1x1.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x1_S16x1_0_0 : ∀ a, (![0, 0] : Fin 2 → Nat) a + S16x1.size a ≤ S16x1.size a
  h_S16x1 : 0 < S16x1.numel
  shapeCasts_S16x1_S16 : S16x1.ShapeCasts S16
  shapeCasts_S16_S16x1x1 : S16.ShapeCasts S16x1x1
  slices_S16x512_o0_0_S16x128 : S16x512.Slices ![0, 0] S16x128
  shapeCasts_S16x512_S16x512x1 : S16x512.ShapeCasts S16x512x1
  shapeCasts_S16x128_S16x1x128 : S16x128.ShapeCasts S16x1x128
  broadcasts_S16x512x1_S16x512x128 : S16x512x1.Broadcasts S16x512x128
  broadcasts_S16x1x128_S16x512x128 : S16x1x128.Broadcasts S16x512x128
  broadcasts_S16x1x1_S16x512x128 : S16x1x1.Broadcasts S16x512x128
  reduces_S16x512x128_S16x512 : S16x512x128.Reduces [2] S16x512
  reduces_S16x512_S16 : S16x512.Reduces [1] S16
  slices_S16x512_o0_128_S16x128 : S16x512.Slices ![0, 128] S16x128
  slices_S16x512_o0_256_S16x128 : S16x512.Slices ![0, 256] S16x128
  slices_S16x512_o0_384_S16x128 : S16x512.Slices ![0, 384] S16x128
  shapeCasts_S1x1_S1x1 : S1x1.ShapeCasts S1x1
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  reducesTo_S100_S_d0 : S100.ReducesTo [0] S_
  h_S_ : 0 < S_.numel
  dot_S512x512_S512x512_S512x512_1_0_0_1_n_n_wf : DotDims.WF S512x512 S512x512 S512x512 [1] [0] [0] [1] [] []
  gather_S100_S512x1_S512_n_0_n_n_0_1_1_wf : GatherDims.WF S100 S512x1 S512 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S512x512.size a
  hwx1_0 : ∀ i : grid1.Coords, EltTy.bits .f32 = 32 ∨ (Rect.block (s := S512x512) S16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S512x512.size a
  hwx1_1 : ∀ i : grid1.Coords, EltTy.bits .f32 = 32 ∨ (Rect.block (s := S512x512) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S512x512.size a
  hwx1_2 : ∀ i : grid1.Coords, EltTy.bits .f32 = 32 ∨ (Rect.block (s := S512x512) S16x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S512x1.size a
  hwx1_3 : ∀ i : grid1.Coords, EltTy.bits .f32 = 32 ∨ (Rect.block (s := S512x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def gather_S100_S512x1_S512_n_0_n_n_0_1_1 : GatherDims S100 S512x1 S512 where
  offsetDims := []
  collapsedSliceDims := [0]
  operandBatchingDims := []
  startIndicesBatchingDims := []
  startIndexMap := [0]
  indexVectorDim := 1
  sliceSizes := ![1]
  wf := gather_S100_S512x1_S512_n_0_n_n_0_1_1_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S16x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x512 : Shape := ⟨2, ![512, 512]⟩
abbrev S512 : Shape := ⟨1, ![512]⟩
abbrev S100 : Shape := ⟨1, ![100]⟩
abbrev S512x1 : Shape := ⟨2, ![512, 1]⟩
abbrev S1x512 : Shape := ⟨2, ![1, 512]⟩
abbrev S_ : Shape := ⟨0, ![]⟩
abbrev S512x512x1 : Shape := ⟨3, ![512, 512, 1]⟩
abbrev S512x1x512 : Shape := ⟨3, ![512, 1, 512]⟩
abbrev S512x512x512 : Shape := ⟨3, ![512, 512, 512]⟩
abbrev S512x1x1 : Shape := ⟨3, ![512, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100, .f32⟩
  | .hbm, ⟨3, _⟩ => ⟨S100, .f32⟩
  | .hbm, ⟨4, _⟩ => ⟨S512x512, .f32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i1⟩
  | .hbm, ⟨18, _⟩ => ⟨S512x512, .i1⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .f32⟩
  | .hbm, ⟨28, _⟩ => ⟨S512x512x1, .f32⟩
  | .hbm, ⟨29, _⟩ => ⟨S512x1x512, .f32⟩
  | .hbm, ⟨30, _⟩ => ⟨S512x512x512, .f32⟩
  | .hbm, ⟨31, _⟩ => ⟨S512x512x512, .f32⟩
  | .hbm, ⟨32, _⟩ => ⟨S512x512x512, .f32⟩
  | .hbm, ⟨33, _⟩ => ⟨S512x1x1, .f32⟩
  | .hbm, ⟨34, _⟩ => ⟨S512x512x512, .f32⟩
  | .hbm, ⟨35, _⟩ => ⟨S512x512x512, .f32⟩
  | .hbm, ⟨36, _⟩ => ⟨S512x512x1, .i1⟩
  | .hbm, ⟨37, _⟩ => ⟨S512x1x512, .i1⟩
  | .hbm, ⟨38, _⟩ => ⟨S512x512x512, .i1⟩
  | .hbm, ⟨39, _⟩ => ⟨S512x512x512, .i1⟩
  | .hbm, ⟨40, _⟩ => ⟨S512x512x512, .i1⟩
  | .hbm, ⟨41, _⟩ => ⟨S_, .f32⟩
  | .hbm, ⟨42, _⟩ => ⟨S512x512x512, .f32⟩
  | .hbm, ⟨43, _⟩ => ⟨S512x512x512, .f32⟩
  | .hbm, ⟨44, _⟩ => ⟨S_, .f32⟩
  | .hbm, ⟨45, _⟩ => ⟨S_, .f32⟩
  | .hbm, ⟨46, _⟩ => ⟨S512x512x512, .f32⟩
  | .hbm, ⟨47, _⟩ => ⟨S512x512x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S_S512 : S_.BroadcastsInDim S512 (![] : Fin 0 → Fin S512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S512_S512x1x1_0 : S512.BroadcastsInDim S512x1x1 (![0] : Fin 1 → Fin S512x1x1.rank)
  bcast_S512x1x1_S512x512x512_0_1_2 : S512x1x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  h_S_ : 0 < S_.numel
  reducesTo_S100_S_d0 : S100.ReducesTo [0] S_
  dot_S512x512_S512x512_S512x512_1_1_0_0_n_n_wf : DotDims.WF S512x512 S512x512 S512x512 [1] [1] [0] [0] [] []
  gather_S100_S512x1_S512_n_0_n_n_0_1_1_wf : GatherDims.WF S100 S512x1 S512 [] [0] [] [0] [] 1 ![1]

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def gather_S100_S512x1_S512_n_0_n_n_0_1_1 : GatherDims S100 S512x1 S512 where
  offsetDims := []
  collapsedSliceDims := [0]
  operandBatchingDims := []
  startIndicesBatchingDims := []
  startIndexMap := [0]
  indexVectorDim := 1
  sliceSizes := ![1]
  wf := gather_S100_S512x1_S512_n_0_n_n_0_1_1_wf

class Facts : Prop extends Facts₀ where

variable [Facts]
-- ==== Proof.Spec.lean ====
/-
  The triplet hinge sum, as mathematics, with no program in sight.

  For a batch of 512 anchors with a similarity matrix `d`, 0/1 masks `p` (positives) and `n` (negatives) and a
  per-anchor margin `μ`, the triple (i, j, k) contributes

      p i j · n i k · max (d i j − d i k + μ i) 0,

  an extended real; the loss is the sum of the contributions of all 512³ triples (`hingeSum`). The similarity is the
  Gram matrix of the embeddings, `gram x i j = ∑ₖ x i k · x j k`.

  Everything about ONE anchor depends only on that anchor's rows `d i`, `p i`, `n i` and its margin (`termRow`).
  The tiled arrangement visits the anchors in 32 blocks of 16 rows; for one anchor it splits the negatives' axis into
  four chunks of 128 columns, sums a chunk over its columns and then over j (`chunkRow`), and adds the four chunk sums
  to zero from the left (`rowTotalOf`); a block is the sum of its sixteen row totals (`blockTotal`). Addition of
  extended reals is commutative and associative, so the two arrangements are one number (Proof/SumLaws.lean).
-/
import Idealize.ShloMosaic.PureOps.Ideal
import Idealize.ShloMosaic.Lib.ValueIdx

noncomputable section

namespace Cert.Triplet

open Idealize.ShloMosaic

/-- A one-bit word as an extended real: 0 or 1. -/
def toE (b : BitVec 1) : EReal := ((b.toNat : ℝ) : EReal)

/-- The Gram matrix of 512 embeddings of dimension 512, entry (i, j). -/
def gram (x : (⟨2, ![512, 512]⟩ : Shape).Idx → EReal) (i j : Fin 512) : EReal :=
  ∑ k : Fin 512, x (ValueIdx.ix2 i k) * x (ValueIdx.ix2 j k)

/-- One anchor's contribution for the positive j and the negative k, from the anchor's own rows and margin. -/
def termRow (dr pr nr : Fin 512 → EReal) (m : EReal) (j k : Fin 512) : EReal :=
  pr j * nr k * max (dr j - dr k + m) 0

/-- Column `kk` of the `c`-th chunk of 128 columns. -/
def col (c : Fin 4) (kk : Fin 128) : Fin 512 := ⟨128 * c.val + kk.val, by omega⟩

/-- Row `r` of the `s`-th block of 16 rows. -/
def row (s : Fin 32) (r : Fin 16) : Fin 512 := ⟨16 * s.val + r.val, by omega⟩

/-- One anchor's contributions with the negative in chunk `c`: summed over the chunk's columns, then over j. -/
def chunkRow (dr pr nr : Fin 512 → EReal) (m : EReal) (c : Fin 4) : EReal :=
  ∑ j : Fin 512, ∑ kk : Fin 128, termRow dr pr nr m j (col c kk)

/-- One anchor's total: the four chunk sums added to zero, first to last. -/
def rowTotalOf (dr pr nr : Fin 512 → EReal) (m : EReal) : EReal :=
  (((0 + chunkRow dr pr nr m 0) + chunkRow dr pr nr m 1) + chunkRow dr pr nr m 2) + chunkRow dr pr nr m 3

/-- The contribution of the triple (anchor i, positive j, negative k). -/
def term (d p n : Fin 512 → Fin 512 → EReal) (μ : Fin 512 → EReal) (i j k : Fin 512) : EReal :=
  termRow (d i) (p i) (n i) (μ i) j k

/-- Anchor i's total in the tiled arrangement. -/
def rowTotal (d p n : Fin 512 → Fin 512 → EReal) (μ : Fin 512 → EReal) (i : Fin 512) : EReal :=
  rowTotalOf (d i) (p i) (n i) (μ i)

/-- One block of sixteen anchors. -/
def blockTotal (d p n : Fin 512 → Fin 512 → EReal) (μ : Fin 512 → EReal) (s : Fin 32) : EReal :=
  ∑ r : Fin 16, rowTotal d p n μ (row s r)

/-- Block `s`'s total as a function of every natural (zero past the last block). -/
def blockAt (d p n : Fin 512 → Fin 512 → EReal) (μ : Fin 512 → EReal) (s : Nat) : EReal :=
  if h : s < 32 then blockTotal d p n μ ⟨s, h⟩ else 0

/-- The loss: every triple's contribution, summed. -/
def hingeSum (d p n : Fin 512 → Fin 512 → EReal) (μ : Fin 512 → EReal) : EReal :=
  ∑ i : Fin 512, ∑ j : Fin 512, ∑ k : Fin 512, term d p n μ i j k

end Cert.Triplet

end
-- ==== Proof.SumLaws.lean ====
/-
  The tiled arrangement of the triplet hinge sum is the plain triple sum.

  Everything here is algebra in a commutative additive monoid: sums may be re-indexed along a bijection, two
  finite sums may be exchanged, and `0 + x = x`. Nothing else about extended reals is used (no subtraction, no
  finiteness).

  Two re-indexings carry the argument. The 512 columns are four chunks of 128: `(c, kk) ↦ col c kk = 128·c + kk`
  is a bijection of `Fin 4 × Fin 128` onto `Fin 512` (quotient and remainder by 128 invert it). The 512 rows are
  32 blocks of 16: `(s, r) ↦ row s r = 16·s + r` is a bijection of `Fin 32 × Fin 16` onto `Fin 512`. So a sum
  over chunks and then over a chunk's columns is the sum over all columns, and a sum over blocks and then over a
  block's rows is the sum over all rows.

  For one anchor, the four chunk sums added to zero from the left are `∑ c, ∑ j, ∑ kk, t j (col c kk)`; exchanging
  the sums over `c` and `j` and re-indexing the inner pair gives `∑ j, ∑ k, t j k`. Summing the anchors block by
  block and re-indexing the rows gives the sum over all anchors.
-/
import proofs.«145270_j4956392259672_1_alg».proof.Proof.Spec
import Mathlib.Logic.Equiv.Defs
import Mathlib.Algebra.BigOperators.Fin
import Mathlib.Algebra.BigOperators.Group.Finset.Defs
import Mathlib.Algebra.BigOperators.Group.Finset.Sigma
import Mathlib.Data.Fintype.BigOperators

noncomputable section

namespace Cert.Triplet

/-- Chunk and column-in-chunk against the column: `(c, kk) ↦ 128·c + kk`, inverted by quotient and remainder. -/
def colEquiv : Fin 4 × Fin 128 ≃ Fin 512 where
  toFun x := col x.1 x.2
  invFun k := (⟨k.val / 128, by omega⟩, ⟨k.val % 128, by omega⟩)
  left_inv := by
    rintro ⟨c, kk⟩
    refine Prod.ext (Fin.ext ?_) (Fin.ext ?_)
    · show (128 * c.val + kk.val) / 128 = c.val
      omega
    · show (128 * c.val + kk.val) % 128 = kk.val
      omega
  right_inv := by
    intro k
    refine Fin.ext ?_
    show 128 * (k.val / 128) + k.val % 128 = k.val
    omega

/-- Block and row-in-block against the row: `(s, r) ↦ 16·s + r`, inverted by quotient and remainder. -/
def rowEquiv : Fin 32 × Fin 16 ≃ Fin 512 where
  toFun x := row x.1 x.2
  invFun i := (⟨i.val / 16, by omega⟩, ⟨i.val % 16, by omega⟩)
  left_inv := by
    rintro ⟨s, r⟩
    refine Prod.ext (Fin.ext ?_) (Fin.ext ?_)
    · show (16 * s.val + r.val) / 16 = s.val
      omega
    · show (16 * s.val + r.val) % 16 = r.val
      omega
  right_inv := by
    intro i
    refine Fin.ext ?_
    show 16 * (i.val / 16) + i.val % 16 = i.val
    omega

/-- Summing over the four chunks and, in each, over its 128 columns is summing over the 512 columns. -/
theorem sum_col {M : Type*} [AddCommMonoid M] (f : Fin 512 → M) :
    ∑ c : Fin 4, ∑ kk : Fin 128, f (col c kk) = ∑ k : Fin 512, f k := by
  rw [← Fintype.sum_prod_type' (fun c kk => f (col c kk))]
  exact Fintype.sum_equiv colEquiv _ _ (fun _ => rfl)

/-- Summing over the 32 blocks and, in each, over its 16 rows is summing over the 512 rows. -/
theorem sum_row {M : Type*} [AddCommMonoid M] (f : Fin 512 → M) :
    ∑ s : Fin 32, ∑ r : Fin 16, f (row s r) = ∑ i : Fin 512, f i := by
  rw [← Fintype.sum_prod_type' (fun s r => f (row s r))]
  exact Fintype.sum_equiv rowEquiv _ _ (fun _ => rfl)

/-- The four chunk sums added to zero, first to last, are the sum over the four chunks. -/
theorem rowTotalOf_eq_sum_chunks (dr pr nr : Fin 512 → EReal) (m : EReal) :
    rowTotalOf dr pr nr m = ∑ c : Fin 4, chunkRow dr pr nr m c := by
  rw [Fin.sum_univ_four]
  unfold rowTotalOf
  rw [zero_add]

/-- One anchor's total in the tiled arrangement is the sum of its contributions over all pairs (j, k). -/
theorem rowTotalOf_eq (dr pr nr : Fin 512 → EReal) (m : EReal) :
    rowTotalOf dr pr nr m = ∑ j : Fin 512, ∑ k : Fin 512, termRow dr pr nr m j k := by
  rw [rowTotalOf_eq_sum_chunks]
  unfold chunkRow
  rw [Finset.sum_comm]
  refine Finset.sum_congr rfl (fun j _ => ?_)
  exact sum_col (fun k => termRow dr pr nr m j k)

/-- Past-the-end-guarded block totals, read at a block index, are the block totals. -/
theorem blockAt_val (d p n : Fin 512 → Fin 512 → EReal) (μ : Fin 512 → EReal) (s : Fin 32) :
    blockAt d p n μ s.val = blockTotal d p n μ s := by
  unfold blockAt
  rw [dif_pos s.isLt]

/-- The 32 block totals add up to the loss. -/
theorem sum_blocks (d p n : Fin 512 → Fin 512 → EReal) (μ : Fin 512 → EReal) :
    ∑ s ∈ Finset.range 32, blockAt d p n μ s = hingeSum d p n μ := by
  rw [← Fin.sum_univ_eq_sum_range (fun s => blockAt d p n μ s) 32]
  have hb : ∀ s : Fin 32, blockAt d p n μ s.val = ∑ r : Fin 16, rowTotal d p n μ (row s r) :=
    fun s => blockAt_val d p n μ s
  rw [Finset.sum_congr rfl (fun s _ => hb s)]
  rw [sum_row (fun i => rowTotal d p n μ i)]
  unfold hingeSum
  refine Finset.sum_congr rfl (fun i _ => ?_)
  exact rowTotalOf_eq (d i) (p i) (n i) (μ i)

end Cert.Triplet

end
-- ==== Proof.KEntry.lean ====
/-
  Region 1's four input arrays as it finds them, entry by entry: the similarity matrix, the positives' and the
  negatives' masks (as floats), and each anchor's margin (the one column of the margin array).
-/
import proofs.«145270_j4956392259672_1_alg».proof.Proof.Gen.KernelIdeal
import Idealize.ShloMosaic.PureOps.Ideal
import Idealize.ShloMosaic.Lib.ValueIdx

noncomputable section

namespace Cert.KernelIdeal.AccValue

open Cert.KernelIdeal Idealize.ShloMosaic Idealize.ShloMosaic.TcCoe Idealize.SL.Sem Idealize.ShloMosaic.ValueIdx

variable (V : (c : Dev nD) → (b : Ref sig .tc) → Buf (Elt Ideal) ((c : Thread nD τ).loc b))

/-- The similarity of anchors i and j. -/
def dK (c : Dev nD) (i j : Fin 512) : EReal := (V c main_v0 : Vec Ideal S512x512 .f32) (ix2 i j)
/-- 1 where j is a valid positive for anchor i, else 0. -/
def pK (c : Dev nD) (i j : Fin 512) : EReal := (V c main_v13 : Vec Ideal S512x512 .f32) (ix2 i j)
/-- 1 where k is a valid negative for anchor i, else 0. -/
def nK (c : Dev nD) (i k : Fin 512) : EReal := (V c main_v15 : Vec Ideal S512x512 .f32) (ix2 i k)
/-- Anchor i's margin. -/
def μK (c : Dev nD) (i : Fin 512) : EReal := (V c main_v23 : Vec Ideal S512x1 .f32) (ix2 i 0)

end Cert.KernelIdeal.AccValue

end
-- ==== Proof.KPieces.lean ====
/-
  What each case of the two kernel regions leaves in its output's staging buffer, as the skeleton's payloads of
  the input blocks — at any float instance.

  Region 0 has one store through the whole buffer: its payload is the product's payload `k0_pay1` of the loaded
  block. Region 1 accumulates into a 1×1 buffer. At the first grid point the body first stores the zero block, reads
  it back, and stores the update: the later store covers the buffer, so the buffer ends at the update's payload over
  the zero block. At every other point the body reads the buffer's running contents and stores the update over them.
  In both cases every load is through the whole-shape rectangle at zero offsets of a whole staging buffer, so it reads
  that buffer's contents.
-/
import proofs.«145270_j4956392259672_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 rectangle, as the constant function. -/
theorem hz : (![0, 0] : Fin 2 → Nat) = fun _ => 0 := funext fun a => by fin_cases a <;> rfl

/-- REGION 0: the one store covers the 512×512 buffer, and its load reads the whole input block, so the buffer ends
    at the matrix product's payload of that block. -/
theorem out_0 (x0 : Vec F S512x512 .f32) : out0_1 x0 = k0_pay1 x0 := by
  unfold out0_1
  rw [View.canon_unit_zero (S := S512x512) hz, View.ld_unit_zero (S := S512x512) hz]

/-- REGION 1, the first grid point: the zero block is stored, read back, and the sixteen row totals of the four
    input blocks are added to it; the second store covers the 1×1 buffer, so it ends at that sum over zero. -/
theorem out_A (c : Dev nD) (i : grid1.Coords) (a1 : Memref sig .tc .vmem S16x512 .f32) (h1 : a1.IsWhole) (a2 : Memref sig .tc .vmem S16x512 .f32) (h2 : a2.IsWhole)
    (a3 : Memref sig .tc .vmem S16x512 .f32) (h3 : a3.IsWhole) (a4 : Memref sig .tc .vmem S16x1 .f32) (h4 : a4.IsWhole) (a5 : Memref sig .tc .vmem S1x1 .f32) (h5 : a5.IsWhole)
    (hc : cond1_0 i) (x0 x1 x2 : Vec F S16x512 .f32) (x3 : Vec F S16x1 .f32) :
    out1_A_4 c i a1 h1 a2 h2 a3 h3 a4 h4 a5 h5 hc x0 x1 x2 x3
      = k1_pay1 (k1_pay11 (k1_pay3 x0) (k1_pay4 x1) (k1_pay5 x2) (k1_pay6 x3) (k1_pay7 x0 x1 x2 x3) (k1_pay8 x0 x3) (k1_pay9 x1) (k1_pay10 x2)) (k1_pay2 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S16x512) hz, View.ld_unit_zero (S := S16x1) hz]

/-- REGION 1, every later grid point: the buffer's running contents `xo` are read and the sixteen row totals of the
    four input blocks are added to them; the one store covers the 1×1 buffer. -/
theorem out_B (c : Dev nD) (i : grid1.Coords) (a1 : Memref sig .tc .vmem S16x512 .f32) (h1 : a1.IsWhole) (a2 : Memref sig .tc .vmem S16x512 .f32) (h2 : a2.IsWhole)
    (a3 : Memref sig .tc .vmem S16x512 .f32) (h3 : a3.IsWhole) (a4 : Memref sig .tc .vmem S16x1 .f32) (h4 : a4.IsWhole) (a5 : Memref sig .tc .vmem S1x1 .f32) (h5 : a5.IsWhole)
    (hc : ¬cond1_0 i) (x0 x1 x2 : Vec F S16x512 .f32) (x3 : Vec F S16x1 .f32) (xo : Vec F S1x1 .f32) :
    out1_B_4 c i a1 h1 a2 h2 a3 h3 a4 h4 a5 h5 hc x0 x1 x2 x3 xo
      = k1_pay1 (k1_pay11 (k1_pay3 x0) (k1_pay4 x1) (k1_pay5 x2) (k1_pay6 x3) (k1_pay7 x0 x1 x2 x3) (k1_pay8 x0 x3) (k1_pay9 x1) (k1_pay10 x2)) xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero (S := S1x1) hz]
  simp only [View.readAt_eq_ld, h1.read_unread, h2.read_unread, h3.read_unread, h4.read_unread, h5.read_unread,
    View.ld_unit_zero (S := S16x512) hz, View.ld_unit_zero (S := S16x1) hz, View.ld_unit_zero (S := S1x1) hz]

end Cert.KernelIdeal.Pieces

end
-- ==== Proof.KPayload.lean ====
/-
  The arithmetic of the reduction body, read at an index, over the extended reals.

  For a block of sixteen anchors the body holds three [16, 512] arrays — the similarities d, the positives' mask p and
  the negatives' mask n — and a [16, 1] column of margins mu. It forms, for each row r, the four chunk sums

      C_c(r) = sum over j < 512 and kk < 128 of  p[r, j] * n[r, 128 c + kk] * max ((d[r, j] - d[r, 128 c + kk]) + mu[r], 0),

  adds them to zero first to last, and adds the sixteen row totals to the value accumulated so far. Each chunk is the
  same chain of operations — two slices of 128 columns, casts that insert a unit axis, broadcasts to [16, 512, 128],
  the pointwise arithmetic, a sum along the last axis and a sum along the middle one — and the chunks differ only in
  the slices' column offset. So the chain is read once, with the offset a variable (chunk, chunk_apply), after each
  layout operation and each sum has been read at explicit coordinates (r : Fin 16, j : Fin 512, kk : Fin 128); the
  body's row totals are then the four instances added up (rows_eq, by unfolding), which is the specification's
  rowTotalOf of row r (rows_apply). The accumulation (acc_apply) and the reset value (zero_apply) are read the same way.
-/
import proofs.«145270_j4956392259672_1_alg».proof.Proof.Gen.KernelIdeal.Skeleton
import proofs.«145270_j4956392259672_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.PayloadValue

open Cert.KernelIdeal Cert.KernelIdeal.Gen Idealize.ShloMosaic Idealize.ShloMosaic.ValueIdx Cert.Triplet

/-! ## Layout operations of the body, read at explicit coordinates -/

section Layout
variable {α : Type}

/-- A [16, 512] array viewed [16, 512, 1] and broadcast along a new last axis of 128 reads, at (r, j, kk), the array
    at (r, j). -/
theorem bcastCol_apply (x : S16x512.Idx → α) (h1 : S16x512.ShapeCasts S16x512x1) (h2 : S16x512x1.Broadcasts S16x512x128)
    (r : Fin 16) (j : Fin 512) (kk : Fin 128) :
    broadcastTo S16x512x128 (shapeCast S16x512x1 x h1) h2 (ix3 r j kk) = x (ix2 r j) := by
  refine (broadcastTo_apply (shapeCast S16x512x1 x h1) h2 (ix3 r j kk) (ix3 r j (0 : Fin 1)) fun a => ?_).trans ?_
  · match a with
    | ⟨0, _⟩ => rfl
    | ⟨1, _⟩ => rfl
    | ⟨2, _⟩ => rfl
  · refine shapeCast_apply x h1 (ix3 r j (0 : Fin 1)) (ix2 r j) ?_
    rw [Shape.rowMajor_val_two, Shape.rowMajor_val_three]
    show r.val * 512 + j.val = (r.val * 512 + j.val) * 1 + 0
    omega

/-- A [16, 128] array viewed [16, 1, 128] and broadcast along a new middle axis of 512 reads, at (r, j, kk), the array
    at (r, kk). -/
theorem bcastRow_apply (y : S16x128.Idx → α) (h1 : S16x128.ShapeCasts S16x1x128) (h2 : S16x1x128.Broadcasts S16x512x128)
    (r : Fin 16) (j : Fin 512) (kk : Fin 128) :
    broadcastTo S16x512x128 (shapeCast S16x1x128 y h1) h2 (ix3 r j kk) = y (ix2 r kk) := by
  refine (broadcastTo_apply (shapeCast S16x1x128 y h1) h2 (ix3 r j kk) (ix3 r (0 : Fin 1) kk) fun a => ?_).trans ?_
  · match a with
    | ⟨0, _⟩ => rfl
    | ⟨1, _⟩ => rfl
    | ⟨2, _⟩ => rfl
  · refine shapeCast_apply y h1 (ix3 r (0 : Fin 1) kk) (ix2 r kk) ?_
    rw [Shape.rowMajor_val_two, Shape.rowMajor_val_three]
    show r.val * 128 + kk.val = (r.val * 1 + 0) * 128 + kk.val
    omega

/-- A [16, 1, 1] array broadcast to [16, 512, 128] reads, at (r, j, kk), the array at (r, 0, 0). -/
theorem bcastUnit_apply (z : S16x1x1.Idx → α) (h : S16x1x1.Broadcasts S16x512x128) (r : Fin 16) (j : Fin 512) (kk : Fin 128) :
    broadcastTo S16x512x128 z h (ix3 r j kk) = z (ix3 r (0 : Fin 1) (0 : Fin 1)) := by
  refine broadcastTo_apply z h (ix3 r j kk) (ix3 r (0 : Fin 1) (0 : Fin 1)) fun a => ?_
  match a with
  | ⟨0, _⟩ => rfl
  | ⟨1, _⟩ => rfl
  | ⟨2, _⟩ => rfl

/-- A [16, 1] column viewed [16] and then [16, 1, 1] reads, at (r, 0, 0), the column at (r, 0). -/
theorem castMargin_apply (x : S16x1.Idx → α) (h1 : S16x1.ShapeCasts S16) (h2 : S16.ShapeCasts S16x1x1) (r : Fin 16) :
    shapeCast S16x1x1 (shapeCast S16 x h1) h2 (ix3 r (0 : Fin 1) (0 : Fin 1)) = x (ix2 r (0 : Fin 1)) := by
  refine (shapeCast_apply (shapeCast S16 x h1) h2 (ix3 r (0 : Fin 1) (0 : Fin 1)) (ix1 r) ?_).trans ?_
  · rw [Shape.rowMajor_val_one, Shape.rowMajor_val_three]
    show r.val = (r.val * 1 + 0) * 1 + 0
    omega
  · refine shapeCast_apply x h1 (ix1 r) (ix2 r (0 : Fin 1)) ?_
    rw [Shape.rowMajor_val_two, Shape.rowMajor_val_one]
    show r.val * 1 + 0 = r.val
    omega

end Layout

/-! ## The body's sums, read at explicit coordinates -/

/-- The sum along the last axis of a [16, 512, 128] array, at (r, j). -/
theorem sumLast_apply (src : FVec Ideal S16x512x128 .f32) (h : S16x512x128.Reduces [2] S16x512) (hφ : FKind.Formats .f32)
    (hacc : (0x00000000#32 : BitVec 32) = FKind.add.neutral .f32 hφ) (r : Fin 16) (j : Fin 512) :
    multiReduction (F := Ideal) .add [2] S16x512 src 0x00000000#32 h hφ hacc (ix2 r j) = ∑ kk : Fin 128, src (ix3 r j kk) := by
  refine (Ideal.multiReduction_add_single src _ h hφ hacc (ix2 r j)).trans ?_
  refine Finset.sum_congr rfl fun kk _ => congrArg src ?_
  funext a
  match a with
  | ⟨0, _⟩ => rfl
  | ⟨1, _⟩ => rfl
  | ⟨2, _⟩ => rfl

/-- The sum along the last axis of a [16, 512] array, at r. -/
theorem sumRow_apply (src : FVec Ideal S16x512 .f32) (h : S16x512.Reduces [1] S16) (hφ : FKind.Formats .f32)
    (hacc : (0x00000000#32 : BitVec 32) = FKind.add.neutral .f32 hφ) (r : Fin 16) :
    multiReduction (F := Ideal) .add [1] S16 src 0x00000000#32 h hφ hacc (ix1 r) = ∑ j : Fin 512, src (ix2 r j) := by
  refine (Ideal.multiReduction_add_single src _ h hφ hacc (ix1 r)).trans ?_
  refine Finset.sum_congr rfl fun j _ => congrArg src ?_
  funext a
  match a with
  | ⟨0, _⟩ => rfl
  | ⟨1, _⟩ => rfl

/-- The sum along the last axis of a [1, 16] array, at its one index. -/
theorem sumUnitRow_apply (src : FVec Ideal S1x16 .f32) (h : S1x16.Reduces [1] S1) (hφ : FKind.Formats .f32)
    (hacc : (0x00000000#32 : BitVec 32) = FKind.add.neutral .f32 hφ) (u : Fin 1) :
    multiReduction (F := Ideal) .add [1] S1 src 0x00000000#32 h hφ hacc (ix1 u) = ∑ k : Fin 16, src (ix2 u k) := by
  refine (Ideal.multiReduction_add_single src _ h hφ hacc (ix1 u)).trans ?_
  refine Finset.sum_congr rfl fun k _ => congrArg src ?_
  funext a
  match a with
  | ⟨0, _⟩ => rfl
  | ⟨1, _⟩ => rfl

/-! ## One chunk of 128 negatives

The body treats the negatives' axis in four chunks of 128 columns; the four stretches of operations differ only in the
column offset of the two slices. One chunk, as a function of the offset: for each row r, the sum over the positives j and
over the chunk's columns kk of  p[r, j] * n[r, o + kk] * max ((d[r, j] - d[r, o + kk]) + mu[r], 0). -/

/-- The operations of one chunk, the column offset o a variable. -/
def chunk (d p n : FVec Ideal S16x512 .f32) (mu : FVec Ideal S16x1x1 .f32) (o : Nat)
    (hs : S16x512.Slices ![0, o] S16x128) : FVec Ideal S16 .f32 :=
  multiReduction (F := Ideal) .add [1] S16
    (multiReduction (F := Ideal) .add [2] S16x512
      (mulf
        (mulf
          (broadcastTo S16x512x128 (shapeCast S16x512x1 p shapeCasts_S16x512_S16x512x1) broadcasts_S16x512x1_S16x512x128)
          (broadcastTo S16x512x128 (shapeCast S16x1x128 (extractStridedSlice S16x128 ![0, o] n hs) shapeCasts_S16x128_S16x1x128)
            broadcasts_S16x1x128_S16x512x128))
        (maximumf
          (addf
            (subf
              (broadcastTo S16x512x128 (shapeCast S16x512x1 d shapeCasts_S16x512_S16x512x1) broadcasts_S16x512x1_S16x512x128)
              (broadcastTo S16x512x128 (shapeCast S16x1x128 (extractStridedSlice S16x128 ![0, o] d hs) shapeCasts_S16x128_S16x1x128)
                broadcasts_S16x1x128_S16x512x128))
            (broadcastTo S16x512x128 mu broadcasts_S16x1x1_S16x512x128))
          (broadcast S16x512x128 (Scalar.ofBits (F := Ideal) .f32 0x00000000#32))))
      0x00000000#32 reduces_S16x512x128_S16x512 (.inl rfl) rfl)
    0x00000000#32 reduces_S16x512_S16 (.inl rfl) rfl

/-- One chunk at row r: the double sum of the row's contributions over the positives and the chunk's columns, the
    columns named by any function k with k kk = o + kk. -/
theorem chunk_apply (d p n : FVec Ideal S16x512 .f32) (mu : FVec Ideal S16x1x1 .f32) (o : Nat)
    (hs : S16x512.Slices ![0, o] S16x128) (k : Fin 128 → Fin 512) (hk : ∀ kk, (k kk).val = o + kk.val) (r : Fin 16) :
    chunk d p n mu o hs (ix1 r)
      = ∑ j : Fin 512, ∑ kk : Fin 128,
          termRow (fun j => d (ix2 r j)) (fun j => p (ix2 r j)) (fun c => n (ix2 r c)) (mu (ix3 r (0 : Fin 1) (0 : Fin 1))) j (k kk) := by
  unfold chunk
  refine (sumRow_apply _ reduces_S16x512_S16 (.inl rfl) rfl r).trans ?_
  refine Finset.sum_congr rfl fun j _ => ?_
  refine (sumLast_apply _ reduces_S16x512x128_S16x512 (.inl rfl) rfl r j).trans ?_
  refine Finset.sum_congr rfl fun kk _ => ?_
  have eP := bcastCol_apply p shapeCasts_S16x512_S16x512x1 broadcasts_S16x512x1_S16x512x128 r j kk
  have eD := bcastCol_apply d shapeCasts_S16x512_S16x512x1 broadcasts_S16x512x1_S16x512x128 r j kk
  have eN := (bcastRow_apply (extractStridedSlice S16x128 ![0, o] n hs) shapeCasts_S16x128_S16x1x128
      broadcasts_S16x1x128_S16x512x128 r j kk).trans (slice2_axis1_apply o n hs r kk (k kk) (hk kk))
  have eDk := (bcastRow_apply (extractStridedSlice S16x128 ![0, o] d hs) shapeCasts_S16x128_S16x1x128
      broadcasts_S16x1x128_S16x512x128 r j kk).trans (slice2_axis1_apply o d hs r kk (k kk) (hk kk))
  have eM := bcastUnit_apply mu broadcasts_S16x1x1_S16x512x128 r j kk
  have eZ : broadcast S16x512x128 (Scalar.ofBits (F := Ideal) .f32 0x00000000#32) (ix3 r j kk) = (0 : EReal) :=
    Ideal.ofBits_zero_f32
  exact congr (congrArg HMul.hMul (congr (congrArg HMul.hMul eP) eN))
    (congr (congrArg max (congr (congrArg HAdd.hAdd (congr (congrArg HSub.hSub eD) eDk)) eM)) eZ)

/-! ## The payloads -/

/-- The accumulation: the old value plus the sum of the sixteen row totals. -/
theorem acc_apply (v92 : FVec Ideal S16 .f32) (v93 : Vec Ideal S1x1 .f32) (y : S1x1.Idx) :
    k1_pay1 (F := Ideal) v92 v93 y = v93 y + ∑ r : Fin 16, v92 (ix1 r) := by
  have e1 : shapeCast S1x1 v93 shapeCasts_S1x1_S1x1 = v93 := shapeCast_self v93 _
  have e2 : extractAt ![0, 0]
      (shapeCast S1x1 (multiReduction (F := Ideal) .add [1] S1 (shapeCast S1x16 v92 shapeCasts_S16_S1x16) 0x00000000#32
        reduces_S1x16_S1 (.inl rfl) rfl) shapeCasts_S1_S1x1) inpos_S1x1_p0_0 = ∑ r : Fin 16, v92 (ix1 r) := by
    unfold extractAt
    refine (shapeCast_apply _ shapeCasts_S1_S1x1 _ (ix1 (0 : Fin 1)) ?_).trans ?_
    · rw [Shape.rowMajor_val_one, Shape.rowMajor_val_two]
      rfl
    · refine (sumUnitRow_apply _ reduces_S1x16_S1 (.inl rfl) rfl (0 : Fin 1)).trans ?_
      refine Finset.sum_congr rfl fun k _ => ?_
      exact shapeCast_a_1a_apply v92 shapeCasts_S16_S1x16 (0 : Fin 1) k
  unfold k1_pay1
  exact congr (congrArg HAdd.hAdd (congrFun e1 y)) e2

/-- The reset value is zero. -/
theorem zero_apply (y : S1x1.Idx) : k1_pay2 (F := Ideal) y = 0 := Ideal.ofBits_zero_f32

/-- The body's row totals are the four chunks added to zero, first to last. -/
theorem rows_eq (x0 x1 x2 : Vec Ideal S16x512 .f32) (x3 : Vec Ideal S16x1 .f32) :
    k1_pay11 (F := Ideal) (k1_pay3 x0) (k1_pay4 x1) (k1_pay5 x2) (k1_pay6 x3) (k1_pay7 x0 x1 x2 x3) (k1_pay8 x0 x3) (k1_pay9 x1) (k1_pay10 x2)
      = addf (addf (addf (addf (broadcast S16 (Scalar.ofBits (F := Ideal) .f32 0x00000000#32))
            (chunk (k1_pay3 x0) (k1_pay4 x1) (k1_pay5 x2) (k1_pay6 x3) 0 slices_S16x512_o0_0_S16x128))
            (chunk (k1_pay3 x0) (k1_pay4 x1) (k1_pay5 x2) (k1_pay6 x3) 128 slices_S16x512_o0_128_S16x128))
            (chunk (k1_pay3 x0) (k1_pay4 x1) (k1_pay5 x2) (k1_pay6 x3) 256 slices_S16x512_o0_256_S16x128))
            (chunk (k1_pay3 x0) (k1_pay4 x1) (k1_pay5 x2) (k1_pay6 x3) 384 slices_S16x512_o0_384_S16x128) := rfl

/-- Row r of the body's row totals is the row total of the specification, from row r of the three blocks and the
    row's margin. -/
theorem rows_apply (x0 x1 x2 : Vec Ideal S16x512 .f32) (x3 : Vec Ideal S16x1 .f32) (r : Fin 16) :
    k1_pay11 (F := Ideal) (k1_pay3 x0) (k1_pay4 x1) (k1_pay5 x2) (k1_pay6 x3) (k1_pay7 x0 x1 x2 x3) (k1_pay8 x0 x3) (k1_pay9 x1) (k1_pay10 x2) (ix1 r)
      = rowTotalOf (fun j => x0 (ix2 r j)) (fun j => x1 (ix2 r j)) (fun k => x2 (ix2 r k)) (x3 (ix2 r 0)) := by
  have h3 : k1_pay3 (F := Ideal) x0 = x0 := shapeCast_self x0 _
  have h4 : k1_pay4 (F := Ideal) x1 = x1 := shapeCast_self x1 _
  have h5 : k1_pay5 (F := Ideal) x2 = x2 := shapeCast_self x2 _
  have h6 : k1_pay6 (F := Ideal) x3 (ix3 r (0 : Fin 1) (0 : Fin 1)) = x3 (ix2 r (0 : Fin 1)) :=
    castMargin_apply x3 shapeCasts_S16x1_S16 shapeCasts_S16_S16x1x1 r
  have hc : ∀ (c : Fin 4) (o : Nat) (hs : S16x512.Slices ![0, o] S16x128) (ho : ∀ kk : Fin 128, (col c kk).val = o + kk.val),
      chunk (k1_pay3 x0) (k1_pay4 x1) (k1_pay5 x2) (k1_pay6 x3) o hs (ix1 r)
        = chunkRow (fun j => x0 (ix2 r j)) (fun j => x1 (ix2 r j)) (fun k => x2 (ix2 r k)) (x3 (ix2 r 0)) c := by
    intro c o hs ho
    refine (chunk_apply (k1_pay3 x0) (k1_pay4 x1) (k1_pay5 x2) (k1_pay6 x3) o hs (col c) ho r).trans ?_
    rw [h3, h4, h5, h6]
    rfl
  refine (congrFun (rows_eq x0 x1 x2 x3) (ix1 r)).trans ?_
  exact congr (congrArg HAdd.hAdd (congr (congrArg HAdd.hAdd (congr (congrArg HAdd.hAdd (congr (congrArg HAdd.hAdd
      (Ideal.ofBits_zero_f32 : broadcast S16 (Scalar.ofBits (F := Ideal) .f32 0x00000000#32) (ix1 r) = (0 : EReal))
      ) (hc 0 0 slices_S16x512_o0_0_S16x128 fun kk => by show 128 * 0 + kk.val = 0 + kk.val; omega)
      )) (hc 1 128 slices_S16x512_o0_128_S16x128 fun kk => by show 128 * 1 + kk.val = 128 + kk.val; omega)
      )) (hc 2 256 slices_S16x512_o0_256_S16x128 fun kk => by show 128 * 2 + kk.val = 256 + kk.val; omega)
      )) (hc 3 384 slices_S16x512_o0_384_S16x128 fun kk => by show 128 * 3 + kk.val = 384 + kk.val; omega)

end Cert.KernelIdeal.PayloadValue

end
-- ==== Proof.KBlocks.lean ====
/-
  What the windows of the two kernel regions read at a grid point, as entries of their arrays — at any float
  instance, for any contents `V` of the arrays when the region is entered.

  Region 1 walks 32 grid points; its four input windows have index map (t, 0), with blocks of 16 rows (512 columns for
  the three matrices, one column for the margin column). A block's coordinate in the array is always
  index × block size + the coordinate inside the block, so entry (r, j) of the block at point t is entry (16·t + r, j)
  of the array. Region 0 has one grid point and its input block is the whole 512×512 array.
-/
import proofs.«145270_j4956392259672_1_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F] (V : (c : Dev nD) → (b : Ref sig .tc) → Buf (Elt F) ((c : Thread nD τ).loc b))

/-- Row r of the block at point t is a row of the 512-row array: 16·t + r < 512 for t < 32, r < 16. -/
theorem lt512 (t : Fin cfg1.N) (r : Fin 16) : 16 * t.val + r.val < 512 := by
  have hN : cfg1.N = 32 := N_1
  have ht := t.isLt
  have hr := r.isLt
  omega

/-! ## The index maps, decided once over the grid -/

/-- Region 1, window 0 (the distance matrix): block index (t, 0). -/
theorem rows_d : ∀ t : Fin cfg1.N, win1_0.index t 0 = t.val ∧ win1_0.index t 1 = 0 :=
  (by decide +kernel : ∀ t : Fin grid1.N, win1_0.index t 0 = t.val ∧ win1_0.index t 1 = 0)

/-- Region 1, window 1 (the first mask): block index (t, 0). -/
theorem rows_p : ∀ t : Fin cfg1.N, win1_1.index t 0 = t.val ∧ win1_1.index t 1 = 0 :=
  (by decide +kernel : ∀ t : Fin grid1.N, win1_1.index t 0 = t.val ∧ win1_1.index t 1 = 0)

/-- Region 1, window 2 (the second mask): block index (t, 0). -/
theorem rows_n : ∀ t : Fin cfg1.N, win1_2.index t 0 = t.val ∧ win1_2.index t 1 = 0 :=
  (by decide +kernel : ∀ t : Fin grid1.N, win1_2.index t 0 = t.val ∧ win1_2.index t 1 = 0)

/-- Region 1, window 3 (the margin column): block index (t, 0). -/
theorem rows_m : ∀ t : Fin cfg1.N, win1_3.index t 0 = t.val ∧ win1_3.index t 1 = 0 :=
  (by decide +kernel : ∀ t : Fin grid1.N, win1_3.index t 0 = t.val ∧ win1_3.index t 1 = 0)

/-- Region 0, window 0 (the input matrix): block index (0, 0) at its one point. -/
theorem rows_x : ∀ t : Fin cfg0.N, win0_0.index t 0 = 0 ∧ win0_0.index t 1 = 0 :=
  (by decide +kernel : ∀ t : Fin grid0.N, win0_0.index t 0 = 0 ∧ win0_0.index t 1 = 0)

/-! ## Region 1: rows 16·t … 16·t + 15 of each array -/

/-- The distance block at point t, entry (r, j): the array's entry (16·t + r, j). -/
theorem blk_d (c : Dev nD) (t : Fin cfg1.N) (r : Fin 16) (j : Fin 512) :
    (iblk1 V c 0 t : Vec F S16x512 .f32) (ix2 r j) = (V c main_v0 : Vec F S512x512 .f32) (ix2 ⟨16 * t.val + r.val, lt512 t r⟩ j) := by
  unfold iblk1
  rw [View.read_apply]
  show V c main_v0 _ = V c main_v0 _
  congr 1
  funext a
  apply Fin.ext
  match a with
  | ⟨0, _⟩ => show win1_0.index t 0 * 16 + 1 * r.val = 16 * t.val + r.val; rw [(rows_d t).1]; omega
  | ⟨1, _⟩ => show win1_0.index t 1 * 512 + 1 * j.val = j.val; rw [(rows_d t).2]; omega

/-- The first mask's block at point t, entry (r, j): the array's entry (16·t + r, j). -/
theorem blk_p (c : Dev nD) (t : Fin cfg1.N) (r : Fin 16) (j : Fin 512) :
    (iblk1 V c 1 t : Vec F S16x512 .f32) (ix2 r j) = (V c main_v13 : Vec F S512x512 .f32) (ix2 ⟨16 * t.val + r.val, lt512 t r⟩ j) := by
  unfold iblk1
  rw [View.read_apply]
  show V c main_v13 _ = V c main_v13 _
  congr 1
  funext a
  apply Fin.ext
  match a with
  | ⟨0, _⟩ => show win1_1.index t 0 * 16 + 1 * r.val = 16 * t.val + r.val; rw [(rows_p t).1]; omega
  | ⟨1, _⟩ => show win1_1.index t 1 * 512 + 1 * j.val = j.val; rw [(rows_p t).2]; omega

/-- The second mask's block at point t, entry (r, j): the array's entry (16·t + r, j). -/
theorem blk_n (c : Dev nD) (t : Fin cfg1.N) (r : Fin 16) (j : Fin 512) :
    (iblk1 V c 2 t : Vec F S16x512 .f32) (ix2 r j) = (V c main_v15 : Vec F S512x512 .f32) (ix2 ⟨16 * t.val + r.val, lt512 t r⟩ j) := by
  unfold iblk1
  rw [View.read_apply]
  show V c main_v15 _ = V c main_v15 _
  congr 1
  funext a
  apply Fin.ext
  match a with
  | ⟨0, _⟩ => show win1_2.index t 0 * 16 + 1 * r.val = 16 * t.val + r.val; rw [(rows_n t).1]; omega
  | ⟨1, _⟩ => show win1_2.index t 1 * 512 + 1 * j.val = j.val; rw [(rows_n t).2]; omega

/-- The margin column's block at point t, entry (r, 0): the array's entry (16·t + r, 0). -/
theorem blk_m (c : Dev nD) (t : Fin cfg1.N) (r : Fin 16) :
    (iblk1 V c 3 t : Vec F S16x1 .f32) (ix2 r 0) = (V c main_v23 : Vec F S512x1 .f32) (ix2 ⟨16 * t.val + r.val, lt512 t r⟩ 0) := by
  unfold iblk1
  rw [View.read_apply]
  show V c main_v23 _ = V c main_v23 _
  congr 1
  funext a
  apply Fin.ext
  match a with
  | ⟨0, _⟩ => show win1_3.index t 0 * 16 + 1 * r.val = 16 * t.val + r.val; rw [(rows_m t).1]; omega
  | ⟨1, _⟩ => show win1_3.index t 1 * 1 + 1 * (0 : Fin 1).val = (0 : Fin 1).val; rw [(rows_m t).2]; rfl

/-! ## Region 0: the one block is the whole array -/

/-- The input block of region 0 at its one point is the 512×512 array itself: block index (0, 0), block size the
    array's. -/
theorem blk_x (c : Dev nD) (t : Fin cfg0.N) : (iblk0 V c 0 t : Vec F S512x512 .f32) = V c main_arg0 := by
  refine funext fun (y : S512x512.Idx) => ?_
  unfold iblk0
  rw [View.read_apply]
  show V c main_arg0 _ = V c main_arg0 y
  congr 1
  funext a
  apply Fin.ext
  match a with
  | ⟨0, _⟩ => show win0_0.index t 0 * 512 + 1 * (y 0).val = (y 0).val; rw [(rows_x t).1]; omega
  | ⟨1, _⟩ => show win0_0.index t 1 * 512 + 1 * (y 1).val = (y 1).val; rw [(rows_x t).2]; omega

end Cert.KernelIdeal.Blocks

end
-- ==== Proof.KFinal.lean ====
/-
  What the two regions' result arrays hold when the regions end.

  Region 1 accumulates into a 1×1 result whose block never moves: at every grid point the block of the result
  window is the whole 1×1 array, at block index (0, 0). The block is written back to the array after the last of the
  32 points only, so the array ends holding what the body left in the staging buffer at point 31.

  Region 0 has a single grid point, and the block of its result window is the whole 512×512 array, written back at
  that point: the array ends holding what the body left there.

  In both cases the write-back's rectangle sits at offset zero with the array's own sizes, so reading the array
  through it reads the array, and every index of the array lies in it: the one written block covers the array.
-/
import proofs.«145270_j4956392259672_1_alg».proof.Proof.Gen.KernelIdeal.Frame
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Region 1: the 1×1 sum -/

/-- Point 31 is a point of the 32-point grid. -/
theorem last_lt : 31 < cfg1.N := by
  rw [show cfg1.N = 32 from N_1]; decide

/-- The result window's block index is (0, 0) at every point, so its offsets in the array are zero. -/
theorem sum_offsets (t : Fin cfg1.N) :
    (fun a => win1_4.index t a * main_v24.ty.shape.size a) = fun _ => 0 :=
  funext fun a => by fin_cases a <;> rfl

/-- Read through the result window's block, at any point, a 1×1 array is itself. -/
theorem sum_read_blk (c : Dev nD) (t : Fin cfg1.N) (X : Buf (Elt F) ((c : Thread nD τ).loc main_v24)) :
    ((cfg1.win 4).blk t).view.read (Elt F) X = X :=
  Memref.read_access_unit_zero (Elt F) main_v24 (sum_offsets t)
    (fun a => by rw [congrFun (sum_offsets t) a]; simp) X

/-- The only point that writes the block back is point 31, and what it writes is what the body left there. -/
theorem sum_flushed (c : Dev nD) (t : Fin cfg1.N) (hf : (cfg1.win 4).flush t = true) :
    (dat1 V c).flushed 4 t = ((cfg1.win 4).blk t).view.read (Elt F) (outsAt1 V c 31 last_lt) := by
  have hN : cfg1.N = 32 := N_1
  have hlast : t.val = 31 := by
    have h := (flush1_4 t).mp hf
    have hlt := t.isLt
    omega
  obtain rfl : t = ⟨31, last_lt⟩ := Fin.ext hlast
  rw [sum_read_blk c]
  show (cfg1.win 4).cut (grid1.coords ⟨31, last_lt⟩) ((dat1 V c).after 4 ⟨31, last_lt⟩) = _
  rw [after1_4]
  rfl

/-- Every index of the 1×1 array lies in the result window's block, at any point. -/
theorem sum_mem_blk (c : Dev nD) (t : Fin cfg1.N)
    (i : ((cfg1.win 4).arr.view.loc ((c : Dev nD).tc : Thread nD τ)).2.ty.Idx) :
    i ∈ ((cfg1.win 4).blk t).view.set := by
  show i ∈ ((View.whole main_v24).slice (win1_4.rect t)).set
  rw [View.set_slice_whole, Rect.mem_set_unit]
  intro a
  have hz := congrFun (sum_offsets t) a
  have hlt := (i a).isLt
  show win1_4.index t a * win1_4.size a ≤ (i a : Nat) ∧ (i a : Nat) < win1_4.index t a * win1_4.size a + win1_4.size a
  have hz' : win1_4.index t a * win1_4.size a = 0 := hz
  rw [hz']
  exact ⟨Nat.zero_le _, by rw [Nat.zero_add]; exact hlt⟩

/-- Region 1's result array ends holding what point 31 left in the staging buffer. -/
theorem final_sum (c : Dev nD) :
    (dat1 V c).arrAt 4 cfg1.N = (outsAt1 V c 31 last_lt : Buf (Elt F) ((c : Thread nD τ).loc main_v24)) :=
  (dat1 V c).arrAt_eq_of_cover 4 (outsAt1 V c 31 last_lt) (sum_flushed V c) fun i =>
    ⟨⟨31, last_lt⟩, (flush1_4 _).mpr rfl, sum_mem_blk c _ i⟩

/-! ## Region 0: the 512×512 product -/

/-- The result window's block index is (0, 0) at the one point, so its offsets in the array are zero. -/
theorem gram_offsets (t : Fin cfg0.N) :
    (fun a => win0_1.index t a * main_v0.ty.shape.size a) = fun _ => 0 :=
  funext fun a => by fin_cases a <;> rfl

/-- Read through the result window's block, a 512×512 array is itself. -/
theorem gram_read_blk (c : Dev nD) (t : Fin cfg0.N) (X : Buf (Elt F) ((c : Thread nD τ).loc main_v0)) :
    ((cfg0.win 1).blk t).view.read (Elt F) X = X :=
  Memref.read_access_unit_zero (Elt F) main_v0 (gram_offsets t)
    (fun a => by rw [congrFun (gram_offsets t) a]; simp) X

/-- The one point writes back what the body left: the product of the point's input block. -/
theorem gram_flushed (c : Dev nD) (t : Fin cfg0.N) (hf : (cfg0.win 1).flush t = true) :
    (dat0 V c).flushed 1 t = ((cfg0.win 1).blk t).view.read (Elt F) (out0_1 (iblk0 V c 0 t0_0)) := by
  obtain rfl : t = t0_0 := fin_N0 t
  rw [gram_read_blk c]
  show (cfg0.win 1).cut (grid0.coords t0_0) ((dat0 V c).after 1 t0_0) = _
  rw [after0_1]
  rfl

/-- Every index of the 512×512 array lies in the result window's block. -/
theorem gram_mem_blk (c : Dev nD) (t : Fin cfg0.N)
    (i : ((cfg0.win 1).arr.view.loc ((c : Dev nD).tc : Thread nD τ)).2.ty.Idx) :
    i ∈ ((cfg0.win 1).blk t).view.set := by
  show i ∈ ((View.whole main_v0).slice (win0_1.rect t)).set
  rw [View.set_slice_whole, Rect.mem_set_unit]
  intro a
  have hlt := (i a).isLt
  show win0_1.index t a * win0_1.size a ≤ (i a : Nat) ∧ (i a : Nat) < win0_1.index t a * win0_1.size a + win0_1.size a
  have hz' : win0_1.index t a * win0_1.size a = 0 := congrFun (gram_offsets t) a
  rw [hz']
  exact ⟨Nat.zero_le _, by rw [Nat.zero_add]; exact hlt⟩

/-- Region 0's result array ends holding what the body left at its one point. -/
theorem final_gram (c : Dev nD) :
    (dat0 V c).arrAt 1 cfg0.N = (out0_1 (iblk0 V c 0 t0_0) : Buf (Elt F) ((c : Thread nD τ).loc main_v0)) :=
  (dat0 V c).arrAt_eq_of_cover 1 (out0_1 (iblk0 V c 0 t0_0)) (gram_flushed V c) fun i =>
    ⟨t0_0, flush0_1 t0_0, gram_mem_blk c _ i⟩

end Cert.KernelIdeal.Final

end
-- ==== Proof.KAccum.lean ====
/-
  Region 1 over its 32 grid points: the 1×1 output ends at the whole hinge sum.

  At grid point t the four input blocks are rows 16·t … 16·t + 15 of the Gram matrix, of the two masks and of the
  margin column as the region finds them. The body adds that block's total — the sum of its sixteen row totals — to what
  the output's staging buffer held: zero at the first point (the reset, read back), the previous point's contents at
  every later one. So after point n the buffer holds 0 + the totals of blocks 0 … n, by induction on the point; after
  the last point that is the sum over all 512 anchors, which is the sum over all triples (Proof/SumLaws.lean), and
  that is what the one write-back puts in the output array.
-/
import proofs.«145270_j4956392259672_1_alg».proof.Proof.Spec
import proofs.«145270_j4956392259672_1_alg».proof.Proof.SumLaws
import proofs.«145270_j4956392259672_1_alg».proof.Proof.KEntry
import proofs.«145270_j4956392259672_1_alg».proof.Proof.KPieces
import proofs.«145270_j4956392259672_1_alg».proof.Proof.KPayload
import proofs.«145270_j4956392259672_1_alg».proof.Proof.KBlocks
import proofs.«145270_j4956392259672_1_alg».proof.Proof.KFinal

set_option maxRecDepth 16384

noncomputable section

namespace Cert.KernelIdeal.AccValue

open Cert.KernelIdeal Cert.KernelIdeal.Gen Idealize.ShloMosaic Idealize.ShloMosaic.TcCoe Idealize.SL.Sem Idealize.ShloMosaic.ValueIdx Cert.Triplet

variable (V : (c : Dev nD) → (b : Ref sig .tc) → Buf (Elt Ideal) ((c : Thread nD τ).loc b))

/-- What grid point t adds: the sixteen row totals of its blocks are block t's total. -/
theorem point_sum (c : Dev nD) (t : Fin cfg1.N) :
    ∑ r : Fin 16, k1_pay11 (F := Ideal) (k1_pay3 (iblk1 V c 0 t)) (k1_pay4 (iblk1 V c 1 t)) (k1_pay5 (iblk1 V c 2 t)) (k1_pay6 (iblk1 V c 3 t))
        (k1_pay7 (iblk1 V c 0 t) (iblk1 V c 1 t) (iblk1 V c 2 t) (iblk1 V c 3 t)) (k1_pay8 (iblk1 V c 0 t) (iblk1 V c 3 t))
        (k1_pay9 (iblk1 V c 1 t)) (k1_pay10 (iblk1 V c 2 t)) (ix1 r)
      = blockAt (dK V c) (pK V c) (nK V c) (μK V c) t.val := by
  have ht : t.val < 32 := lt_of_lt_of_eq t.isLt (show cfg1.N = 32 from N_1)
  unfold blockAt
  rw [dif_pos ht]
  unfold blockTotal
  refine Finset.sum_congr rfl fun r _ => ?_
  refine (PayloadValue.rows_apply (iblk1 V c 0 t) (iblk1 V c 1 t) (iblk1 V c 2 t) (iblk1 V c 3 t) r).trans ?_
  unfold rowTotal
  have e0 : (fun j : Fin 512 => (iblk1 V c 0 t : Vec Ideal S16x512 .f32) (ix2 r j)) = dK V c (row ⟨t.val, ht⟩ r) :=
    funext fun j => Blocks.blk_d V c t r j
  have e1 : (fun j : Fin 512 => (iblk1 V c 1 t : Vec Ideal S16x512 .f32) (ix2 r j)) = pK V c (row ⟨t.val, ht⟩ r) :=
    funext fun j => Blocks.blk_p V c t r j
  have e2 : (fun k : Fin 512 => (iblk1 V c 2 t : Vec Ideal S16x512 .f32) (ix2 r k)) = nK V c (row ⟨t.val, ht⟩ r) :=
    funext fun k => Blocks.blk_n V c t r k
  have e3 : (iblk1 V c 3 t : Vec Ideal S16x1 .f32) (ix2 r 0) = μK V c (row ⟨t.val, ht⟩ r) := Blocks.blk_m V c t r
  rw [e0, e1, e2, e3]

/-- After point n the output's staging buffer holds zero plus the totals of blocks 0 … n. -/
theorem outsAt_value (c : Dev nD) : ∀ (n : ℕ) (h : n < cfg1.N) (y : S1x1.Idx),
    (outsAt1 V c n h : Vec Ideal S1x1 .f32) y
      = 0 + ∑ s ∈ Finset.range (n + 1), blockAt (dK V c) (pK V c) (nK V c) (μK V c) s
  | 0, h, y => by
    rw [outsAt1_A V c ⟨0, h⟩ rfl, Pieces.out_A, PayloadValue.acc_apply, PayloadValue.zero_apply, point_sum V c ⟨0, h⟩,
      Finset.sum_range_one]
  | n + 1, h, y => by
    have hN : cfg1.N = 32 := N_1
    have hB : ¬(⟨n + 1, h⟩ : Fin cfg1.N).val % 32 = 0 := by dsimp only; omega
    rw [outsAt1_B V c ⟨n + 1, h⟩ hB, Pieces.out_B, PayloadValue.acc_apply, point_sum V c ⟨n + 1, h⟩]
    show (outsAt1 V c n _ : Vec Ideal S1x1 .f32) y + _ = _
    rw [outsAt_value c n _ y, Finset.sum_range_succ _ (n + 1), add_assoc]

/-- The output array after the region: the hinge sum over all triples. -/
theorem arr_value (c : Dev nD) (y : S1x1.Idx) :
    ((dat1 V c).arrAt 4 cfg1.N : Vec Ideal S1x1 .f32) y = 0 + hingeSum (dK V c) (pK V c) (nK V c) (μK V c) := by
  rw [Final.final_sum V c, outsAt_value V c 31 Final.last_lt y, sum_blocks]

end Cert.KernelIdeal.AccValue

end
-- ==== Proof.KHost.lean ====
/-
  What @main's two host stretches hold, as functions of the argument arrays.

  Between the two kernels the host builds, from the labels alone, the 0/1 masks of the valid positives (same label,
  not the anchor itself) and of the valid negatives (another label), and, from the labels and the margin table, each
  anchor's margin as a column; the Gram matrix the first kernel wrote passes through untouched. After the second
  kernel the host turns its 1×1 result into a scalar and subtracts the two means, sum(mu)/100 and sum(nv)/100.
  No host operation and no kernel writes an argument, so wherever a stretch reads an argument it reads the launch
  contents.
-/
import proofs.«145270_j4956392259672_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-! ## The stretches' functions -/

/-- `same[i, j]`: anchors i and j carry one label. -/
def sameMask (lab : (⟨S512, .i32⟩ : BufTy).Contents (Elt F)) : (⟨S512x512, .i1⟩ : BufTy).Contents (Elt F) :=
  cmpi .eq (broadcastInDim S512x512 ![0, 1] bcast_S512x1_S512x512_0_1 (broadcastInDim S512x1 ![0] bcast_S512_S512x1_0 lab))
    (broadcastInDim S512x512 ![0, 1] bcast_S1x512_S512x512_0_1 (broadcastInDim S1x512 ![1] bcast_S512_S1x512_1 lab))

/-- The valid positives: same label and off the diagonal. -/
def posMask (lab : (⟨S512, .i32⟩ : BufTy).Contents (Elt F)) : (⟨S512x512, .i1⟩ : BufTy).Contents (Elt F) :=
  andi (sameMask lab)
    (noti (cmpi .eq (addi (iotaInDim S512x512 32 0) (broadcastInDim S512x512 ![] bcast_S_S512x512 (constantI S_ 32 0#32)))
      (iotaInDim S512x512 32 1)))

/-- The valid negatives: another label. -/
def negMask (lab : (⟨S512, .i32⟩ : BufTy).Contents (Elt F)) : (⟨S512x512, .i1⟩ : BufTy).Contents (Elt F) :=
  noti (sameMask lab)

/-- Each anchor's margin: the table read at the anchor's label, a negative label counted from the table's end. -/
def marginVec (lab : (⟨S512, .i32⟩ : BufTy).Contents (Elt F)) (mu : (⟨S100, .f32⟩ : BufTy).Contents (Elt F)) :
    (⟨S512, .f32⟩ : BufTy).Contents (Elt F) :=
  Host.gather gather_S100_S512x1_S512_n_0_n_n_0_1_1 mu
    (broadcastInDim S512x1 ![0] bcast_S512_S512x1_0
      (select (cmpi .slt lab (broadcastInDim S512 ![] bcast_S_S512 (constantI S_ 32 0#32)))
        (addi lab (broadcastInDim S512 ![] bcast_S_S512 (constantI S_ 32 100#32))) lab))

/-- A table's mean over its 100 entries: the sum from zero, divided by 100. -/
def meanOf (v : (⟨S100, .f32⟩ : BufTy).Contents (Elt F)) : (⟨S_, .f32⟩ : BufTy).Contents (Elt F) :=
  Host.divf (Host.reduceAdd v (constant S_ .f32 0x00000000#32) reducesTo_S100_S_d0 h_S_) (constant S_ .f32 0x42C80000#32)

/-- The last stretch: the 1×1 kernel result as a scalar, less the two means. -/
def tail (o : (⟨S1x1, .f32⟩ : BufTy).Contents (Elt F)) (mu nv : (⟨S100, .f32⟩ : BufTy).Contents (Elt F)) :
    (⟨S_, .f32⟩ : BufTy).Contents (Elt F) :=
  subf (subf (shapeCast S_ o shapeCasts_S1x1_S_) (meanOf mu)) (meanOf nv)

/-- The margins' column at row i is the margin vector at i. -/
theorem column_apply (v : (⟨S512, .f32⟩ : BufTy).Contents (Elt F)) (i : Fin 512) :
    shapeCast S512x1 v shapeCasts_S512_S512x1 (ValueIdx.ix2 i (0 : Fin 1)) = v (ValueIdx.ix1 i) :=
  shapeCast_apply v _ _ _ (by
    rw [Shape.rowMajor_val_two, Shape.rowMajor_val_one]
    show i.val = i.val * 1 + 0
    omega)

/-- The scalar result, as extended reals: the 1×1 array's one entry less the two means. -/
theorem tail_apply (o : (⟨S1x1, .f32⟩ : BufTy).Contents (Elt Ideal)) (mu nv : (⟨S100, .f32⟩ : BufTy).Contents (Elt Ideal)) (i : S_.Idx) :
    tail (F := Ideal) o mu nv i = o (ValueIdx.ix2 (0 : Fin 1) (0 : Fin 1)) - meanOf mu i - meanOf nv i := by
  have e : shapeCast S_ o shapeCasts_S1x1_S_ i = o (ValueIdx.ix2 (0 : Fin 1) (0 : Fin 1)) :=
    shapeCast_apply o _ _ _ (by
      rw [Shape.rowMajor_val_two]
      have h1 : (S_.rowMajor i).val < 1 := (S_.rowMajor i).isLt
      show 0 * 1 + 0 = _
      omega)
  show shapeCast S_ o shapeCasts_S1x1_S_ i - meanOf mu i - meanOf nv i = _
  rw [e]

variable (m : (ℓ : Loc nD τ sig) → Buf (Elt F) ℓ) (ρ : Dev nD → PrngReg)

/-! ## The arguments, read at the inner boundaries -/

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)

/-! ## Region 1's entry contents -/

/-- The positives' mask, as floats. -/
theorem V2_pos (c : Dev nD) : V2 m ρ c main_v13 = uitofp .f32 (posMask (m ((c : Thread nD τ).loc main_arg1))) := by
  show StableHlo.after hostOps1 (W1 m ρ c) (Proc.devRef .tc main_v13) = _
  after_results
  rw [W1_arg1]
  rfl

/-- The negatives' mask, as floats. -/
theorem V2_neg (c : Dev nD) : V2 m ρ c main_v15 = uitofp .f32 (negMask (m ((c : Thread nD τ).loc main_arg1))) := by
  show StableHlo.after hostOps1 (W1 m ρ c) (Proc.devRef .tc main_v15) = _
  after_results
  rw [W1_arg1]
  rfl

set_option maxHeartbeats 2000000 in
/-- The margins, as a column. -/
theorem V2_margin (c : Dev nD) : V2 m ρ c main_v23
    = shapeCast S512x1 (marginVec (m ((c : Thread nD τ).loc main_arg1)) (m ((c : Thread nD τ).loc main_arg2))) shapeCasts_S512_S512x1 := by
  show StableHlo.after hostOps1 (W1 m ρ c) (Proc.devRef .tc main_v23) = _
  after_results_simp
  rw [W1_arg1, W1_arg2]
  rfl

/-- The Gram matrix: what region 0 left, untouched by the stretch. -/
theorem V2_gram (c : Dev nD) : V2 m ρ c main_v0 = (dat0 (V0 m ρ) c).arrAt 1 cfg0.N := by
  show StableHlo.after hostOps1 (W1 m ρ c) (Proc.devRef .tc main_v0) = _
  after_results
  exact W1_arr m ρ c 1

/-! ## The result buffer at the last boundary -/

theorem W3_arg2 (c : Dev nD) : W3 m ρ c (Proc.devRef .tc main_arg2) = m ((c : Thread nD τ).loc main_arg2) := by
  rw [W3_of_ne m ρ c main_arg2 (by decide)]
  show StableHlo.after hostOps1 (W1 m ρ c) (Proc.devRef .tc main_arg2) = _
  after_results
  exact W1_arg2 m ρ c
theorem W3_arg3 (c : Dev nD) : W3 m ρ c (Proc.devRef .tc main_arg3) = m ((c : Thread nD τ).loc main_arg3) := by
  rw [W3_of_ne m ρ c main_arg3 (by decide)]
  show StableHlo.after hostOps1 (W1 m ρ c) (Proc.devRef .tc main_arg3) = _
  after_results
  exact W1_of_ne m ρ c main_arg3 (by decide)

/-- The result: the last stretch of region 1's output array and the two tables. -/
theorem W4_result (c : Dev nD) : W4 m ρ c (Proc.devRef .tc main_v31)
    = tail ((dat1 (V2 m ρ) c).arrAt 4 cfg1.N) (m ((c : Thread nD τ).loc main_arg2)) (m ((c : Thread nD τ).loc main_arg3)) := by
  show StableHlo.after hostOps2 (W3 m ρ c) (Proc.devRef .tc main_v31) = _
  after_results
  rw [W3_arg2, W3_arg3, show W3 m ρ c (Proc.devRef .tc main_v24) = (dat1 (V2 m ρ) c).arrAt 4 cfg1.N from W3_arr m ρ c 4]
  rfl

end Cert.KernelIdeal.HostValue

end
-- ==== Proof.KMatmul.lean ====
/-
  The first region's product, entry by entry.

  The region narrows the 512 × 512 array `x` to the shorter float format, transposes a copy of it, and multiplies the
  narrowed array by the transposed copy into an accumulator of zeros. At the extended reals narrowing changes no
  value, the transposed copy read at (k, j) is `x` at (j, k), and the product contracts the left factor's axis 1 with
  the right factor's axis 0. So the entry at (i, j) is the sum over k of x (i, k) · x (j, k): the Gram matrix of the rows.
-/
import proofs.«145270_j4956392259672_1_alg».proof.Proof.Gen.KernelIdeal.Skeleton
import proofs.«145270_j4956392259672_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MatmulValue

open Cert.KernelIdeal Cert.KernelIdeal.Gen Idealize.ShloMosaic Idealize.ShloMosaic.ValueIdx Cert.Triplet

/-! ## The product's operand indices, axis by axis

At the output index `i` and the contraction index `q` the left factor is read at (i 0, q) and the right factor at
(q, i 1). -/

/-- The left factor's row is the output's row. -/
theorem lhs_gram_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- The left factor's column is the contraction position. -/
theorem lhs_gram_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- The right factor's row is the contraction position. -/
theorem rhs_gram_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- The right factor's column is the output's column. -/
theorem rhs_gram_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The left factor's index at output (i, j) and contraction position k. -/
abbrev lidx_gram (i : S512x512.Idx) (k : Fin 512) : S512x512.Idx := fun a => match a with
  | ⟨0, _⟩ => ⟨(i 0).val, (i 0).isLt⟩
  | ⟨1, _⟩ => ⟨k.val, k.isLt⟩
/-- The right factor's index at output (i, j) and contraction position k. -/
abbrev ridx_gram (i : S512x512.Idx) (k : Fin 512) : S512x512.Idx := fun a => match a with
  | ⟨0, _⟩ => ⟨k.val, k.isLt⟩
  | ⟨1, _⟩ => ⟨(i 1).val, (i 1).isLt⟩

/-- A product into the zero accumulator, read at an index: the sum over the contraction position of the factors'
    products. -/
theorem product_apply (l r : FVec Ideal S512x512 .bf16) (i : S512x512.Idx) :
    matmul dot_S512x512_S512x512_S512x512_1_0_0_1_n_n none l r (constant (F := Ideal) S512x512 .f32 0x00000000#32) i
      = ∑ k : Fin 512, l (lidx_gram i k) * r (ridx_gram i k) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx i ((ValueIdx.contrEquiv1 dot_S512x512_S512x512_S512x512_1_0_0_1_n_n 512 rfl rfl).symm k) = lidx_gram i k := funext fun a => Fin.ext (by
    match a with
    | ⟨0, _⟩ => exact lhs_gram_0 _ _
    | ⟨1, _⟩ => exact (lhs_gram_1 _ _).trans hk)
  have er : dot_S512x512_S512x512_S512x512_1_0_0_1_n_n.rhsIdx i ((ValueIdx.contrEquiv1 dot_S512x512_S512x512_S512x512_1_0_0_1_n_n 512 rfl rfl).symm k) = ridx_gram i k := funext fun a => Fin.ext (by
    match a with
    | ⟨0, _⟩ => exact (rhs_gram_0 _ _).trans hk
    | ⟨1, _⟩ => exact rhs_gram_1 _ _)
  rw [el, er]

/-- The region's product at (i, j) is the Gram matrix's entry: narrowing is the identity on extended reals, and the
    transposed copy at (k, j) is the array at (j, k). -/
theorem gram_apply (x : Vec Ideal S512x512 .f32) (i j : Fin 512) : k0_pay1 (F := Ideal) x (ix2 i j) = gram x i j := by
  unfold k0_pay1 gram
  dsimp only
  rw [product_apply]
  refine Finset.sum_congr rfl fun k _ => ?_
  have el : lidx_gram (ix2 i j) k = ix2 i k := funext fun a => Fin.ext (by
    match a with
    | ⟨0, _⟩ => rfl
    | ⟨1, _⟩ => rfl)
  have er : ridx_gram (ix2 i j) k = ix2 k j := funext fun a => Fin.ext (by
    match a with
    | ⟨0, _⟩ => rfl
    | ⟨1, _⟩ => rfl)
  rw [el, er, truncf_apply, transpose_ix2_apply, truncf_apply]

end Cert.KernelIdeal.MatmulValue

end
-- ==== Proof.RefValue.lean ====
/-
  The reference's hinge sum, read down to the mathematics.

  The reference sums, over every triple (i, j, k) of 512 × 512 × 512, the value

      select (pos[i, j] ∧ neg[i, k]) (max ((D[i, j] − D[i, k]) + μ[i]) 0) 0,

  where D is the Gram matrix of the embeddings, pos and neg are one-bit masks and μ is the gathered margin. A
  select on the conjunction of two one-bit words against zero is the product of the two bits, as extended reals, with the
  selected value: when both bits are 1 it is 1 · 1 · x = x, and when either is 0 it is 0 = 0 · x (zero times any
  extended real, infinite ones included, is zero). So each triple contributes `Cert.Triplet.term`, and the whole is
  `Cert.Triplet.hingeSum`, added to the sum's initial value 0.

  The masks and the margin are carried as they stand: only a mask's one bit at (i, j), through `toE`, and the margin's
  extended real at i enter the sum.
-/
import proofs.«145270_j4956392259672_1_alg».proof.Proof.Gen.ReferenceIdeal.Read
import proofs.«145270_j4956392259672_1_alg».proof.Proof.Spec
import Idealize.ShloMosaic.Lib.ValueIdx
import Idealize.ShloMosaic.PureOps.Ideal.Laws
import Mathlib.Data.Fintype.BigOperators

noncomputable section

open scoped BigOperators

namespace Cert.ReferenceIdeal.RefValue

open Cert.ReferenceIdeal Cert.ReferenceIdeal.Read Idealize.ShloMosaic Idealize.ShloMosaic.ValueIdx Cert.Triplet

/-- The positives' mask at (i, j), as 0 or 1. -/
def posE (lab : (⟨S512, .i32⟩ : BufTy).Contents (Elt Ideal)) (i j : Fin 512) : EReal := toE (val_main_v12 (F := Ideal) lab (ix2 i j))
/-- The negatives' mask at (i, k), as 0 or 1. -/
def negE (lab : (⟨S512, .i32⟩ : BufTy).Contents (Elt Ideal)) (i k : Fin 512) : EReal := toE (val_main_v13 (F := Ideal) lab (ix2 i k))
/-- Anchor i's margin: the margin table gathered at the anchor's label. -/
def margin (lab : (⟨S512, .i32⟩ : BufTy).Contents (Elt Ideal)) (mu : (⟨S100, .f32⟩ : BufTy).Contents (Elt Ideal)) (i : Fin 512) : EReal := val_main_v20 (F := Ideal) lab mu (ix1 i)

/-! ## A sum over a rank-3 index set is the triple sum over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One-bit words as 0 and 1 -/

theorem toE_zero : toE 0#1 = 0 := by simp [toE]
theorem toE_one : toE 1#1 = 1 := by simp [toE]

/-- A select on the conjunction of two one-bit words, against zero, is the product of the two bits with the selected
    value. -/
theorem select_and (a b : BitVec 1) (x : EReal) :
    Scalar.select (IntOp.andi a b) x 0 = toE a * toE b * x := by
  rcases BitVec.eq_zero_or_eq_one a with ha | ha <;> rcases BitVec.eq_zero_or_eq_one b with hb | hb <;> subst ha <;> subst hb
  · rw [show IntOp.andi 0#1 0#1 = 0#1 from by decide, select_zero, toE_zero, zero_mul, zero_mul]
  · rw [show IntOp.andi 0#1 1#1 = 0#1 from by decide, select_zero, toE_zero, zero_mul, zero_mul]
  · rw [show IntOp.andi 1#1 0#1 = 0#1 from by decide, select_zero, toE_zero, mul_zero, zero_mul]
  · rw [show IntOp.andi 1#1 1#1 = 1#1 from by decide, select_one, toE_one, one_mul, one_mul]

/-! ## The layout operations' index maps, on coordinates -/

theorem idx_pos (i j k : Fin 512) : idx_main_v29 (idx_main_v31 (ix3 i j k)) = ix2 i j :=
  funext fun a => Fin.ext (by match a with | ⟨0, _⟩ => rfl | ⟨1, _⟩ => rfl)
theorem idx_neg (i j k : Fin 512) : idx_main_v30 (idx_main_v32 (ix3 i j k)) = ix2 i k :=
  funext fun a => Fin.ext (by match a with | ⟨0, _⟩ => rfl | ⟨1, _⟩ => rfl)
theorem idx_dpos (i j k : Fin 512) : idx_main_v21 (idx_main_v23 (ix3 i j k)) = ix2 i j :=
  funext fun a => Fin.ext (by match a with | ⟨0, _⟩ => rfl | ⟨1, _⟩ => rfl)
theorem idx_dneg (i j k : Fin 512) : idx_main_v22 (idx_main_v24 (ix3 i j k)) = ix2 i k :=
  funext fun a => Fin.ext (by match a with | ⟨0, _⟩ => rfl | ⟨1, _⟩ => rfl)
theorem idx_margin (i j k : Fin 512) : idx_main_v26 (idx_main_v27 (ix3 i j k)) = ix1 i :=
  funext fun a => Fin.ext (by match a with | ⟨0, _⟩ => rfl)
theorem lidx_gram (i j q : Fin 512) : lidx_main_v0 (ix2 i j) q = ix2 i q :=
  funext fun a => Fin.ext (by match a with | ⟨0, _⟩ => rfl | ⟨1, _⟩ => rfl)
theorem ridx_gram (i j q : Fin 512) : ridx_main_v0 (ix2 i j) q = ix2 j q :=
  funext fun a => Fin.ext (by match a with | ⟨0, _⟩ => rfl | ⟨1, _⟩ => rfl)

/-! ## The similarity is the Gram matrix -/

theorem gram_at (x0 : (⟨S512x512, .f32⟩ : BufTy).Contents (Elt Ideal)) (i j : Fin 512) :
    val_main_v0 (F := Ideal) x0 (ix2 i j) = gram x0 i j := by
  rw [val_main_v0_apply]
  unfold gram
  refine Finset.sum_congr rfl fun q _ => ?_
  rw [lidx_gram, ridx_gram]

/-! ## One triple's selected hinge -/

theorem hinge_at (x0 : (⟨S512x512, .f32⟩ : BufTy).Contents (Elt Ideal)) (lab : (⟨S512, .i32⟩ : BufTy).Contents (Elt Ideal))
    (mu : (⟨S100, .f32⟩ : BufTy).Contents (Elt Ideal)) (i j k : Fin 512) :
    val_main_v36 (F := Ideal) x0 lab mu (ix3 i j k) = term (gram x0) (posE lab) (negE lab) (margin lab mu) i j k := by
  rw [val_main_v36_apply, val_main_v33_apply, val_main_v31_apply, val_main_v32_apply, val_main_v29_apply, val_main_v30_apply,
    val_main_v35_apply, val_main_v28_apply, val_main_v25_apply, val_main_v27_apply, val_main_v23_apply, val_main_v24_apply,
    val_main_v21_apply, val_main_v22_apply, val_main_v26_apply, val_main_v34_apply, val_main_call0_v1_apply,
    val_main_call0_v0_apply, val_main_cst_2_apply, val_main_cst_apply,
    idx_pos, idx_neg, idx_dpos, idx_dneg, idx_margin, gram_at, gram_at]
  simp only [Ideal.ofBits_def, Ideal.ofBits_zero_f32, Ideal.addf_def, Ideal.subf_def, Ideal.maximumf_def]
  rw [select_and]
  rfl

/-! ## The whole sum -/

theorem hinge_value (x0 : (⟨S512x512, .f32⟩ : BufTy).Contents (Elt Ideal)) (lab : (⟨S512, .i32⟩ : BufTy).Contents (Elt Ideal))
    (mu : (⟨S100, .f32⟩ : BufTy).Contents (Elt Ideal)) (i : S_.Idx) :
    val_main_v37 (F := Ideal) x0 lab mu i = 0 + hingeSum (gram x0) (posE lab) (negE lab) (margin lab mu) := by
  rw [val_main_v37_apply, val_main_cst_3_apply, Ideal.ofBits_def, Ideal.ofBits_zero_f32, sum_idx3]
  unfold hingeSum
  refine congrArg (fun s => (0 : EReal) + s) ?_
  refine Finset.sum_congr rfl fun a _ => Finset.sum_congr rfl fun b _ => Finset.sum_congr rfl fun c _ => ?_
  exact hinge_at x0 lab mu a b c

end Cert.ReferenceIdeal.RefValue

end
-- ==== Proof.Bridge.lean ====
/-
  Where the two programs meet.

  The kernel's program and the reference apply the SAME host operations to the labels and the margin table — the masks
  of the valid positives and negatives, the gathered margins, the two means — so those terms are one term. The
  similarity matrix the second kernel reads is what the first kernel wrote, the Gram matrix of the embeddings: a matrix
  product into a zero accumulator on one side, the host's contraction on the other, the same sum of products over the
  extended reals. So the four families the tiled sum runs over are the four the reference's flat sum runs over.
-/
import proofs.«145270_j4956392259672_1_alg».proof.Proof.KEntry
import proofs.«145270_j4956392259672_1_alg».proof.Proof.KHost
import proofs.«145270_j4956392259672_1_alg».proof.Proof.KMatmul
import proofs.«145270_j4956392259672_1_alg».proof.Proof.KPieces
import proofs.«145270_j4956392259672_1_alg».proof.Proof.KBlocks
import proofs.«145270_j4956392259672_1_alg».proof.Proof.KFinal
import proofs.«145270_j4956392259672_1_alg».proof.Proof.RefValue

set_option maxRecDepth 16384

noncomputable section

namespace Cert.Bridge

open Idealize.ShloMosaic Idealize.ShloMosaic.TcCoe Idealize.SL.Sem Idealize.ShloMosaic.ValueIdx Cert.Triplet
open Cert.KernelIdeal Cert.KernelIdeal.Gen Cert.KernelIdeal.AccValue Cert.KernelIdeal.HostValue

/-! ## One host chain, two spellings -/

theorem posMask_eq (lab : (⟨S512, .i32⟩ : BufTy).Contents (Elt Ideal)) :
    posMask (F := Ideal) lab = Cert.ReferenceIdeal.Read.val_main_v12 (F := Ideal) lab := rfl
theorem negMask_eq (lab : (⟨S512, .i32⟩ : BufTy).Contents (Elt Ideal)) :
    negMask (F := Ideal) lab = Cert.ReferenceIdeal.Read.val_main_v13 (F := Ideal) lab := rfl
theorem margin_eq (lab : (⟨S512, .i32⟩ : BufTy).Contents (Elt Ideal)) (mu : (⟨S100, .f32⟩ : BufTy).Contents (Elt Ideal)) :
    marginVec (F := Ideal) lab mu = Cert.ReferenceIdeal.Read.val_main_v20 (F := Ideal) lab mu := rfl
theorem mean_mu_eq (mu : (⟨S100, .f32⟩ : BufTy).Contents (Elt Ideal)) :
    meanOf (F := Ideal) mu = Cert.ReferenceIdeal.Read.val_main_v39 (F := Ideal) mu := rfl
theorem mean_nv_eq (nv : (⟨S100, .f32⟩ : BufTy).Contents (Elt Ideal)) :
    meanOf (F := Ideal) nv = Cert.ReferenceIdeal.Read.val_main_v42 (F := Ideal) nv := rfl

/-! ## Region 1's four arrays are the reference's four families -/

variable (m : (ℓ : Loc nD τ sig) → Buf (Elt Ideal) ℓ) (ρ : Dev nD → PrngReg)

/-- The similarity matrix region 1 reads is the Gram matrix of the embeddings: region 0's one block is the whole
    array, its one store the product of the array with its transpose. -/
theorem d_eq (c : Dev nD) : dK (V2 m ρ) c = gram (m ((c : Thread nD τ).loc main_arg0)) := by
  funext i j
  unfold dK
  rw [V2_gram m ρ c, Final.final_gram (V0 m ρ) c, Pieces.out_0, Blocks.blk_x (V0 m ρ) c t0_0]
  exact MatmulValue.gram_apply _ i j

/-- The positives' mask as floats is 0 or 1 by the mask's bit. -/
theorem p_eq (c : Dev nD) :
    pK (V2 m ρ) c = Cert.ReferenceIdeal.RefValue.posE (m ((c : Thread nD τ).loc main_arg1)) := by
  funext i j
  unfold pK Cert.ReferenceIdeal.RefValue.posE
  rw [V2_pos m ρ c, ← posMask_eq]
  rfl

/-- The negatives' mask likewise. -/
theorem n_eq (c : Dev nD) :
    nK (V2 m ρ) c = Cert.ReferenceIdeal.RefValue.negE (m ((c : Thread nD τ).loc main_arg1)) := by
  funext i k
  unfold nK Cert.ReferenceIdeal.RefValue.negE
  rw [V2_neg m ρ c, ← negMask_eq]
  rfl

/-- The margin column's row i is the gathered margin of anchor i. -/
theorem μ_eq (c : Dev nD) :
    μK (V2 m ρ) c = Cert.ReferenceIdeal.RefValue.margin (m ((c : Thread nD τ).loc main_arg1)) (m ((c : Thread nD τ).loc main_arg2)) := by
  funext i
  unfold μK Cert.ReferenceIdeal.RefValue.margin
  rw [V2_margin m ρ c, column_apply, margin_eq]

end Cert.Bridge

end
-- ==== Proof.lean ====
/-
  The triplet margin hinge loss over a batch of 512 embeddings: a tiled two-kernel program against one flat sum.

  Both programs compute, from the embeddings X (512×512), the labels, and the tables mu and nv (100 entries each),

      ∑_{i,j,k} pos[i,j] · neg[i,k] · max (D[i,j] − D[i,k] + mu[label i], 0)  −  sum(mu)/100  −  sum(nv)/100,

  where D = X·Xᵀ, pos[i,j] says that j ≠ i carries i's label and neg[i,k] that k carries another one.

  The kernel's program forms D by one matrix product of X (narrowed to bf16: the identity on extended reals) with its
  transpose into a zero accumulator; the host builds the two masks as 0/1 floats and gathers each anchor's margin; a
  second kernel walks the anchors in 32 blocks of 16 rows, for each row cutting the negatives' axis into four chunks of
  128 columns, multiplying the hinge by the two masks, summing each chunk over its columns and over j, adding the four
  chunk sums and the sixteen rows, and accumulating the block totals into a 1×1 output that it resets at the first block
  and writes back after the last; the host subtracts the two means. The reference forms D by the host's contraction,
  selects the hinge where both masks hold and zero elsewhere, and sums all 512³ entries at once.

  Over the extended reals the two are one number, for every input: the two products are the same sum of products
  (Proof/KMatmul.lean, the reference's by its generated reading); a 0/1 mask product times x is x where both bits are
  set and 0 elsewhere, because 1·x = x and 0·x = 0 for every extended real, infinite ones included
  (Proof/RefValue.lean); and the tiled sum is the flat sum re-associated and re-indexed, addition of extended reals
  being commutative and associative (Proof/SumLaws.lean). No step uses that an input is finite.

  The kernel's run is read off its frame: the launch over @main's four segments with the result buffer named
  (Proof/KRun.lean), the host stretches as functions of the arguments (Proof/KHost.lean), what each case of the second
  kernel's body leaves in the output's staging buffer (Proof/KPieces.lean) read at an index (Proof/KPayload.lean) on the
  rows its windows fetch (Proof/KBlocks.lean), folded over the 32 grid points (Proof/KAccum.lean) into the array the
  one write-back fills (Proof/KFinal.lean). The ideal pass rewrote nothing, so `preserves` is trivial.
-/
import proofs.«145270_j4956392259672_1_alg».proof.Defs
import proofs.«145270_j4956392259672_1_alg».proof.Proof.Gen.Kernel
import proofs.«145270_j4956392259672_1_alg».proof.Proof.Gen.Kernel.Skeleton
import proofs.«145270_j4956392259672_1_alg».proof.Proof.Gen.Kernel.Launch
import proofs.«145270_j4956392259672_1_alg».proof.Proof.Gen.Kernel.Points
import proofs.«145270_j4956392259672_1_alg».proof.Proof.Gen.Kernel.Frame
import proofs.«145270_j4956392259672_1_alg».proof.Proof.Gen.KernelIdeal
import proofs.«145270_j4956392259672_1_alg».proof.Proof.Gen.KernelIdeal.Skeleton
import proofs.«145270_j4956392259672_1_alg».proof.Proof.Gen.KernelIdeal.Launch
import proofs.«145270_j4956392259672_1_alg».proof.Proof.Gen.KernelIdeal.Points
import proofs.«145270_j4956392259672_1_alg».proof.Proof.Gen.KernelIdeal.Frame
import proofs.«145270_j4956392259672_1_alg».proof.Proof.Gen.ReferenceIdeal
import proofs.«145270_j4956392259672_1_alg».proof.Proof.Gen.Pre_finite_inputs
import proofs.«145270_j4956392259672_1_alg».proof.Proof.Gen.ReferenceIdeal.Run
import proofs.«145270_j4956392259672_1_alg».proof.Proof.Gen.ReferenceIdeal.Read
import proofs.«145270_j4956392259672_1_alg».proof.Proof.KRun
import proofs.«145270_j4956392259672_1_alg».proof.Proof.KAccum
import proofs.«145270_j4956392259672_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Triplet
open Cert.ReferenceIdeal.RefValue (posE negE margin)

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The kernel's result, as an extended real -/

/-- What the kernel's program leaves in its result buffer: the hinge sum over all triples (from zero), less the two
    means — every piece spelt as the reference's reading spells it. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (i : Cert.KernelIdeal.S_.Idx) :
    (Cert.KernelIdeal.Gen.W4 m ρ c (Proc.devRef .tc Cert.KernelIdeal.main_v31) : Vec Ideal Cert.KernelIdeal.S_ .f32) i
      = (0 + hingeSum (gram (m ((c : Thread Cert.KernelIdeal.nD Cert.KernelIdeal.τ).loc Cert.KernelIdeal.main_arg0)))
              (posE (m ((c : Thread Cert.KernelIdeal.nD Cert.KernelIdeal.τ).loc Cert.KernelIdeal.main_arg1)))
              (negE (m ((c : Thread Cert.KernelIdeal.nD Cert.KernelIdeal.τ).loc Cert.KernelIdeal.main_arg1)))
              (margin (m ((c : Thread Cert.KernelIdeal.nD Cert.KernelIdeal.τ).loc Cert.KernelIdeal.main_arg1))
                (m ((c : Thread Cert.KernelIdeal.nD Cert.KernelIdeal.τ).loc Cert.KernelIdeal.main_arg2))))
          - Cert.ReferenceIdeal.Read.val_main_v39 (F := Ideal) (m ((c : Thread Cert.KernelIdeal.nD Cert.KernelIdeal.τ).loc Cert.KernelIdeal.main_arg2)) i
          - Cert.ReferenceIdeal.Read.val_main_v42 (F := Ideal) (m ((c : Thread Cert.KernelIdeal.nD Cert.KernelIdeal.τ).loc Cert.KernelIdeal.main_arg3)) i := by
  rw [Cert.KernelIdeal.HostValue.W4_result m ρ c, Cert.KernelIdeal.HostValue.tail_apply,
    Cert.KernelIdeal.AccValue.arr_value, Cert.Bridge.d_eq, Cert.Bridge.p_eq, Cert.Bridge.n_eq, Cert.Bridge.μ_eq,
    Cert.Bridge.mean_mu_eq, Cert.Bridge.mean_nv_eq]

/-! ## The two programs agree -/

/-- From memories that agree on the arguments both programs run, and the reference's scalar is the kernel's: the
    reference's reading gives the same hinge sum and the same two means. -/
theorem algebraic : Cert.algebraic_KernelIdeal_ReferenceIdeal := by
  intro m ρ m' ρ' _ hagree
  refine ⟨fun c => Cert.KernelIdeal.Gen.W4 m ρ c (Proc.devRef .tc Cert.KernelIdeal.main_v31),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v43_eq (F := Ideal) _ _ _ _).trans ?_
  funext i
  rw [Cert.ReferenceIdeal.Read.val_main_v43_apply, Cert.ReferenceIdeal.Read.val_main_v40_apply,
    Cert.ReferenceIdeal.RefValue.hinge_value]
  exact (kernel_value m ρ c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
